-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x4 : Shape := ⟨2, ![2048, 4]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S8x4096x2048 .f32) (main_arg1 : FVec F S2048x4 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S8x4096x2048 : Shape := ⟨3, ![8, 4096, 2048]⟩
abbrev S2048x4 : Shape := ⟨2, ![2048, 4]⟩
abbrev S4x2048 : Shape := ⟨2, ![4, 2048]⟩
abbrev S1x512x2048 : Shape := ⟨3, ![1, 512, 2048]⟩
abbrev S1x8x2048 : Shape := ⟨3, ![1, 8, 2048]⟩
abbrev S512x2048 : Shape := ⟨2, ![512, 2048]⟩
abbrev S8x2048 : Shape := ⟨2, ![8, 2048]⟩
abbrev S1x2048 : Shape := ⟨2, ![1, 2048]⟩
abbrev S2048 : Shape := ⟨1, ![2048]⟩
abbrev S511x2048 : Shape := ⟨2, ![511, 2048]⟩
abbrev S2x2048 : Shape := ⟨2, ![2, 2048]⟩
abbrev S510x2048 : Shape := ⟨2, ![510, 2048]⟩
abbrev S3x2048 : Shape := ⟨2, ![3, 2048]⟩
abbrev S509x2048 : Shape := ⟨2, ![509, 2048]⟩
abbrev S8x3x2048 : Shape := ⟨3, ![8, 3, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S2048x4, .f32⟩
  | .hbm, ⟨2, _⟩ => ⟨S4x2048, .f32⟩
  | .hbm, ⟨3, _⟩ => ⟨S8x4096x2048, .f32⟩
  | .hbm, ⟨4, _⟩ => ⟨S8x3x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S4x2048, .f32⟩
  | .local _ .vmem, ⟨5, _⟩ => ⟨S1x512x2048, .f32⟩
  | .local _ .vmem, ⟨6, _⟩ => ⟨S1x512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x4_S4x2048_1_0 : S2048x4.Transposes [1, 0] S4x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  slices_S4x2048_o3_0_S1x2048 : S4x2048.Slices ![3, 0] S1x2048
  shapeCasts_S1x2048_S2048 : S1x2048.ShapeCasts S2048
  shapeCasts_S2048_S1x2048 : S2048.ShapeCasts S1x2048
  broadcasts_S1x2048_S512x2048 : S1x2048.Broadcasts S512x2048
  slices_S4x2048_o2_0_S1x2048 : S4x2048.Slices ![2, 0] S1x2048
  slices_S8x2048_o7_0_S1x2048 : S8x2048.Slices ![7, 0] S1x2048
  slices_S512x2048_o0_0_S511x2048 : S512x2048.Slices ![0, 0] S511x2048
  concatenates_S1x2048_S511x2048_S512x2048_d0 : Shape.Concatenates [S1x2048, S511x2048] S512x2048 0
  slices_S4x2048_o1_0_S1x2048 : S4x2048.Slices ![1, 0] S1x2048
  slices_S8x2048_o6_0_S2x2048 : S8x2048.Slices ![6, 0] S2x2048
  slices_S512x2048_o0_0_S510x2048 : S512x2048.Slices ![0, 0] S510x2048
  concatenates_S2x2048_S510x2048_S512x2048_d0 : Shape.Concatenates [S2x2048, S510x2048] S512x2048 0
  slices_S4x2048_o0_0_S1x2048 : S4x2048.Slices ![0, 0] S1x2048
  slices_S8x2048_o5_0_S3x2048 : S8x2048.Slices ![5, 0] S3x2048
  slices_S512x2048_o0_0_S509x2048 : S512x2048.Slices ![0, 0] S509x2048
  concatenates_S3x2048_S509x2048_S512x2048_d0 : Shape.Concatenates [S3x2048, S509x2048] S512x2048 0
  shapeCasts_S512x2048_S1x512x2048 : S512x2048.ShapeCasts S1x512x2048
  slices_S8x4096x2048_S8x3x2048_0_4093_0 : S8x4096x2048.Slices ![0, 4093, 0] S8x3x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S8x4096x2048.size a
  hwx0_1 : ∀ i : grid0.Coords, EltTy.bits .f32 = 32 ∨ (Rect.block (s := S8x4096x2048) S1x8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .f32 = 32 ∨ (Rect.block (s := S8x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048x4 : Shape := ⟨2, ![2048, 4]⟩
abbrev S_ : Shape := ⟨0, ![]⟩
abbrev S8x4099x2048 : Shape := ⟨3, ![8, 4099, 2048]⟩
abbrev S2048x1 : Shape := ⟨2, ![2048, 1]⟩
abbrev S2048 : Shape := ⟨1, ![2048]⟩
abbrev S1x1x2048 : Shape := ⟨3, ![1, 1, 2048]⟩
abbrev S8x3x2048 : Shape := ⟨3, ![8, 3, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S8x4099x2048, .f32⟩
  | .hbm, ⟨5, _⟩ => ⟨S_, .f32⟩
  | .hbm, ⟨6, _⟩ => ⟨S8x4096x2048, .f32⟩
  | .hbm, ⟨7, _⟩ => ⟨S8x4096x2048, .f32⟩
  | .hbm, ⟨8, _⟩ => ⟨S2048x1, .f32⟩
  | .hbm, ⟨9, _⟩ => ⟨S2048, .f32⟩
  | .hbm, ⟨10, _⟩ => ⟨S1x1x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S2048x1, .f32⟩
  | .hbm, ⟨16, _⟩ => ⟨S2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S2048x1, .f32⟩
  | .hbm, ⟨23, _⟩ => ⟨S2048, .f32⟩
  | .hbm, ⟨24, _⟩ => ⟨S1x1x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S2048x1, .f32⟩
  | .hbm, ⟨30, _⟩ => ⟨S2048, .f32⟩
  | .hbm, ⟨31, _⟩ => ⟨S1x1x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x3x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S8x4096x2048_S8x4099x2048_000_300_000 : S8x4096x2048.Pads (![0, 3, 0] : Fin 3 → Nat) ![0, 0, 0] ![0, 0, 0] S8x4099x2048
  h_S_ : 0 < S_.numel
  bcast_S_S8x4096x2048 : S_.BroadcastsInDim S8x4096x2048 (![] : Fin 0 → Fin S8x4096x2048.rank)
  slices_S8x4099x2048_S8x4096x2048_0_0_0 : S8x4099x2048.Slices ![0, 0, 0] S8x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S8x4099x2048_S8x4096x2048_0_1_0 : S8x4099x2048.Slices ![0, 1, 0] S8x4096x2048
  slices_S2048x4_S2048x1_0_1 : S2048x4.Slices ![0, 1] S2048x1
  slices_S8x4099x2048_S8x4096x2048_0_2_0 : S8x4099x2048.Slices ![0, 2, 0] S8x4096x2048
  slices_S2048x4_S2048x1_0_2 : S2048x4.Slices ![0, 2] S2048x1
  slices_S8x4099x2048_S8x4096x2048_0_3_0 : S8x4099x2048.Slices ![0, 3, 0] S8x4096x2048
  slices_S2048x4_S2048x1_0_3 : S2048x4.Slices ![0, 3] S2048x1
  slices_S8x4096x2048_S8x3x2048_0_4093_0 : S8x4096x2048.Slices ![0, 4093, 0] S8x3x2048

variable [Facts₀]

class Facts : Prop extends Facts₀ where

variable [Facts]
-- ==== Proof.KIBody.lean ====
import proofs.«127751_j35545149342129_1_alg».proof.Proof.Gen.KernelIdeal.Launch
import proofs.«127751_j35545149342129_1_alg».proof.Proof.Gen.KernelIdeal.Skeleton
import proofs.«127751_j35545149342129_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The convolution body at one grid point

At grid point `(b, s)` the body is handed three input blocks — rows `512·s … 512·s+511` of batch `b` of `x`,
the eight rows of `x` that precede them (or, at `s = 0`, eight rows it then replaces by zeros), and the
transposed weights — and stores one output block, a pointwise expression of the three. This module names that
block as a function of the inputs' blocks, proves the body's triple, and states the pipeline's proof data at an
arbitrary entry valuation of the arrays: every input window's buffer holds its block of the array whether or not
it was fetched at that point, and the output window's buffer ends at the named block.
-/

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The arrays as the region finds them: the parameter everything below is stated at.
variable (V : (c : Dev nD) → (b : Ref sig .tc) → Buf (Elt F) ((c : Thread nD τ).loc b))

/-! ## The windows' blocks -/

/-- Window `w`'s block at point `t`, read off its array at the entry contents. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The current rows' window holds its block at every point, for any proof data that reads the array off `V` and
    whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The preceding rows' window likewise. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The weights' window, fetched at the first point only and never moved, likewise. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole buffer -/

abbrev rX : Rect S1x512x2048 := Rect.unit (s := S1x512x2048) ![0, 0, 0] S1x512x2048.size inb_S1x512x2048_S1x512x2048_0_0_0
abbrev rH : Rect S1x8x2048 := Rect.unit (s := S1x8x2048) ![0, 0, 0] S1x8x2048.size inb_S1x8x2048_S1x8x2048_0_0_0
abbrev rW : Rect S4x2048 := Rect.unit (s := S4x2048) ![0, 0] S4x2048.size inb_S4x2048_S4x2048_0_0

/-! ## What the body leaves in the output window's buffer -/

/-- The output block at grid coordinates `i`, from the three input blocks: the one store's value, the four taps'
    products summed. -/
def outBlk (i : grid0.Coords) (x0 : Vec F S1x512x2048 .f32) (x1 : Vec F S1x8x2048 .f32) (x2 : Vec F S4x2048 .f32) : Vec F S1x512x2048 .f32 :=
  View.canon [⟨rX, k0_pay1 (k0_pay5 i (View.ld x0 rX) (View.ld x1 rH) (View.ld x2 rW)) (k0_pay6 i (View.ld x0 rX) (View.ld x1 rH)) (k0_pay7 (View.ld x2 rW))⟩]

/-- The one store covers the buffer. -/
theorem cover_out (p0 : Vec F S1x512x2048 .f32) (y : S1x512x2048.Idx) :
    ∃ pc ∈ ([⟨rX, p0⟩] : List (View.Piece (Elt F) S1x512x2048 .f32)), y ∈ pc.1.set :=
  View.cover_of_tiled [⟨rX, p0⟩] S1x512x2048.size (by rfl) y

/-! ## The body's triple -/

set_option maxHeartbeats 1000000 in
/-- The body on whole staging memrefs, the inputs' at contents `x0`, `x1`, `x2` and the output's at anything, runs
    to the continuation with the inputs' as they were and the output's at `outBlk` of them. -/
theorem sound_kernel (c : Dev nD) (E : Set ℕ) (i : grid0.Coords)
    (arg2 : Memref sig .tc .vmem S1x512x2048 .f32) (harg2 : arg2.IsWhole) (arg3 : Memref sig .tc .vmem S1x8x2048 .f32) (harg3 : arg3.IsWhole)
    (arg4 : Memref sig .tc .vmem S4x2048 .f32) (harg4 : arg4.IsWhole) (arg5 : Memref sig .tc .vmem S1x512x2048 .f32) (harg5 : arg5.IsWhole)
    (x0 : Vec F S1x512x2048 .f32) (x1 : Vec F S1x8x2048 .f32) (x2 : Vec F S4x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk i x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data on core `c`: the arrays as the region finds them; after the body at point `t` each input's buffer
    at its block and the output's at `outBlk` of the input blocks; the invariant the scoped rest and the generator
    register, untouched; nothing owed. The two windows on `x` hold complementary halves of it; the others hold
    their arrays whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (grid0.coords t) (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outBlk (grid0.coords t) (iblk V c 0 t) (iblk V c 1 t) (iblk V c 2 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Conv

end
-- ==== Proof.KIRun.lean ====
import proofs.«127751_j35545149342129_1_alg».proof.Proof.KIBody
import Idealize.ShloMosaic.Lib.Pipeline.Frame
import Idealize.ShloMosaic.Lib.Pipeline.Regions
import Idealize.ShloMosaic.Lib.Pipeline.RegionsLoop

/-!
# The kernel program's run: a transposition, one region whose two input windows share the signal, a slice

@main is three segments. Between segments the core holds every unscoped buffer whole, at a valuation that starts at
the launch memory and is advanced by each segment: the host transposition writes the transposed weights; the region
changes the result array only, to what its write-backs leave; the closing slice writes the second result.

The region's four windows stand on THREE buffers: the current-rows window and the preceding-rows window both read
the signal. Neither writes it, so at the region's entry the signal's buffer is dealt to them in two complementary
halves of its full share (a points-to splits along its share and both halves keep the contents), and at the exit —
an input array's contents never change — the halves are one full share again. The other two arrays are held
whole. Everything else is the one-region launch: the body obligation at every grid point, nothing owed, no semaphore
of the kernel's own, the generator register riding through the region's invariant.
-/

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-- The three distinct buffers behind the four windows' arrays, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)
          ∗ (((c : Thread nD τ).loc main_v1) ↦{fullShare} V' main_v1)) := by
  unfold Pipeline.arrBufs
  exact bigSep_eq_bigSepL_of_eq [main_arg0, main_v0, main_v1] (by decide) (by decide) _

/-- The proof data's arrays, window by window: the two windows on the signal hold complementary halves of it. -/
theorem arrays_eq (c : Dev nD) (G : (w : Fin cfg0.W) → Buf (Elt F) ((cfg0.win w).arr.view.loc (c.tc : Thread nD τ))) :
    ((dat V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)) := by
  unfold Dat.arrays
  rw [bigSep_W0]
  show iprop((_ ↦[(cfg0.win 0).arr.view.set]{(dat V c).share 0} G 0) ∗ (_ ↦[(cfg0.win 1).arr.view.set]{(dat V c).share 1} G 1)
    ∗ (_ ↦[(cfg0.win 2).arr.view.set]{(dat V c).share 2} G 2) ∗ (_ ↦[(cfg0.win 3).arr.view.set]{(dat V c).share 3} G 3)) = _
  rw [(arr_whole0 0).set_eq_univ, (arr_whole0 2).set_eq_univ, (arr_whole0 3).set_eq_univ]
  rfl

end Arrays

section Run

variable (m : (ℓ : Loc nD τ sig) → Buf (Elt F) ℓ) (ρ : Dev nD → PrngReg)

/-- The unscoped buffers at launch. -/
abbrev W0 : Dev nD → Valuation τ sig (Elt F) := fun c b => m (c, b)
/-- After the weights' transposition: the region's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the region's exit: the result array at what the write-backs leave, every other buffer as entered. -/
def W2 (c : Dev nD) : Valuation τ sig (Elt F) :=
  Function.update (W1 m c) (Proc.devRef .tc main_v1) ((dat (V1 m) c).arrAt 3 cfg0.N)
/-- The same read at the TensorCore's references. -/
abbrev V2 : (c : Dev nD) → (b : Ref sig .tc) → Buf (Elt F) ((c : Thread nD τ).loc b) := fun c b => W2 m c b
/-- After the closing slice of the signal. -/
abbrev W3 : Dev nD → Valuation τ sig (Elt F) := fun c => StableHlo.after hostOps1 (W2 m c)

theorem W2_v1 (c : Dev nD) : W2 m c (Proc.devRef .tc main_v1) = (dat (V1 m) c).arrAt 3 cfg0.N := by
  unfold W2; exact Function.update_self ..

theorem W2_of_ne (c : Dev nD) (r : Ref sig .tc) (h : r ≠ main_v1) : W2 m c (Proc.devRef .tc r) = W1 m c (Proc.devRef .tc r) := by
  unfold W2; exact Function.update_of_ne (StableHlo.devRef_ne_of_ne h) ..

/-- ENTRY: the core's unscoped buffers at the entry contents are the windows' arrays — the signal's buffer dealt in
    halves to the two windows on it — and the buffers no window reads. -/
theorem entry_arrays (c : Dev nD) :
    (unscopedBufs (Ix := Unit) (Name := ℕ) (U := UR sig nD τ) (Lvl := ℕ) c (V1 m c) : sProp 𝕄)
      ⊢ iprop((dat (V1 m) c).arrays ((dat (V1 m) c).arrAt · 0)
          ∗ Pipeline.unscopedRest (Ix := Unit) (Name := ℕ) (U := UR sig nD τ) (Lvl := ℕ) spec0 c (V1 m c)) := by
  rw [Pipeline.unscopedBufs_split₀ cfgs 0 winFacts₀0.arr_unscoped c (V1 m c), arrBufs_eq, arrays_eq]
  iintro ⟨⟨Ha, Hw, Ho⟩, Hr⟩
  ihave Ha := (pointsTo_share (PosShare.mem_left_op_right fullShare)).1 $$ Ha
  icases Ha with ⟨Ha₁, Ha₂⟩
  isplitr [Hr]
  · isplitl [Ha₁]; · iexact Ha₁
    isplitl [Ha₂]; · iexact Ha₂
    isplitl [Hw]; · iexact Hw
    iexact Ho
  iexact Hr

/-- EXIT: the arrays at their final contents and the buffers no window reads make the core's unscoped buffers at the
    exit valuation; the signal's two halves, both still at its entry contents, are one buffer again. -/
theorem exit_arrays (c : Dev nD) :
    iprop((dat (V1 m) c).arrays ((dat (V1 m) c).arrAt · cfg0.N)
        ∗ Pipeline.unscopedRest (Ix := Unit) (Name := ℕ) (U := UR sig nD τ) (Lvl := ℕ) spec0 c (V1 m c))
      ⊢ (unscopedBufs (Ix := Unit) (Name := ℕ) (U := UR sig nD τ) (Lvl := ℕ) c (V2 m c) : sProp 𝕄) := by
  have hrest : (Pipeline.unscopedRest (Ix := Unit) (Name := ℕ) (U := UR sig nD τ) (Lvl := ℕ) spec0 c (V2 m c) : sProp 𝕄)
      = Pipeline.unscopedRest spec0 c (V1 m c) := by
    unfold Pipeline.unscopedRest
    exact bigSep_congr fun b hb => by
      rw [show V2 m c b = V1 m c b from W2_of_ne m c b
        (fun e => (Finset.mem_sdiff.mp hb).2 (e ▸ Finset.mem_image.mpr ⟨3, Finset.mem_univ _, rfl⟩))]
  rw [Pipeline.unscopedBufs_split₀ cfgs 0 winFacts₀0.arr_unscoped c (V2 m c), arrBufs_eq, arrays_eq, hrest,
    (dat (V1 m) c).arrAt_in 0 rfl, (dat (V1 m) c).arrAt_in 1 rfl, (dat (V1 m) c).arrAt_in 2 rfl,
    show V2 m c main_arg0 = V1 m c main_arg0 from W2_of_ne m c main_arg0 (by decide),
    show V2 m c main_v0 = V1 m c main_v0 from W2_of_ne m c main_v0 (by decide),
    show V2 m c main_v1 = (dat (V1 m) c).arrAt 3 cfg0.N from W2_v1 m c]
  iintro ⟨⟨Ha₁, Ha₂, Hw, Ho⟩, Hr⟩
  isplitr [Hr]
  · isplitl [Ha₁ Ha₂]
    · iapply (pointsTo_share (PosShare.mem_left_op_right fullShare)).2
      isplitl [Ha₁]; · iexact Ha₁
      iexact Ha₂
    isplitl [Hw]; · iexact Hw
    iexact Ho
  iexact Hr

/-! ## The proof data family and the thread state -/

/-- No pipeline has a prefetched table. -/
abbrev adm : (p : Fin 1) → (pcfgs (F := F) p).Adm := fun p => (cfgs p).toPCfg_adm

/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m) c
  | ⟨_ + 1, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, and the core owing
    nothing. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the dues apart: every unscoped buffer at the final contents, the generator register. -/
abbrev Tₙ (c : Dev nD) : sProp 𝕄 := iprop(StableHlo.held (c : Thread nD τ) (Pipeline.ucRefs τ sig) (W3 m c) ∗ ∃ r, prngReg c r)

/-! ## The region as a segment -/

set_option backward.isDefEq.respectTransparency.types false in
/-- The region over the thread state: entered from every unscoped buffer at `W1`, left at `W2`. Its arrays are dealt
    out of the unscoped buffers and put back at the exit contents; the generator register passes through the invariant;
    nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_arrays m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_arrays m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments: the transposition, the region, the closing slice. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds each unscoped buffer at the last valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The last valuation read at the arguments and the results -/

theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.unary_writes, Finset.singleton_subset_iff, List.mem_toFinset]; exact List.mem_map_of_mem (by decide))
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.unary_writes, Finset.singleton_subset_iff, List.mem_toFinset]; exact List.mem_map_of_mem (by decide))

/-- The transposition writes the transposed weights only. -/
theorem W1_of (c : Dev nD) (r : Ref sig .tc) (h : r ∉ ([main_v0] : List (Ref sig .tc))) :
    W1 m c (Proc.devRef .tc r) = m ((c : Thread nD τ).loc r) :=
  StableHlo.after_of_writes_sub hostOps0 _ hostOps0_writes h
/-- The closing slice writes the second result only. -/
theorem W3_of (c : Dev nD) (r : Ref sig .tc) (h : r ∉ ([main_v2] : List (Ref sig .tc))) :
    W3 m c (Proc.devRef .tc r) = W2 m c (Proc.devRef .tc r) :=
  StableHlo.after_of_writes_sub hostOps1 _ hostOps1_writes h

/-- The signal ends as launched: no host operation writes it and the region only reads it. -/
theorem W3_arg0 (c : Dev nD) : W3 m c (Proc.devRef .tc main_arg0) = m ((c : Thread nD τ).loc main_arg0) :=
  (W3_of m c main_arg0 (by decide)).trans ((W2_of_ne m c main_arg0 (by decide)).trans (W1_of m c main_arg0 (by decide)))
/-- The weights end as launched. -/
theorem W3_arg1 (c : Dev nD) : W3 m c (Proc.devRef .tc main_arg1) = m ((c : Thread nD τ).loc main_arg1) :=
  (W3_of m c main_arg1 (by decide)).trans ((W2_of_ne m c main_arg1 (by decide)).trans (W1_of m c main_arg1 (by decide)))
/-- The first result ends at what the region's write-backs leave. -/
theorem W3_v1 (c : Dev nD) : W3 m c (Proc.devRef .tc main_v1) = (dat (V1 m) c).arrAt 3 cfg0.N :=
  (W3_of m c main_v1 (by decide)).trans (W2_v1 m c)
/-- The region's entry contents of the signal are the launch contents. -/
theorem V1_arg0 (c : Dev nD) : V1 m c main_arg0 = m ((c : Thread nD τ).loc main_arg0) := W1_of m c main_arg0 (by decide)
/-- The region's entry contents of the transposed weights. -/
theorem V1_v0 (c : Dev nD) : V1 m c main_v0 = transpose S4x2048 [1, 0] (m ((c : Thread nD τ).loc main_arg1)) transposes_S2048x4_S4x2048_1_0 := by
  show StableHlo.after hostOps0 _ (Proc.devRef .tc main_v0) = _
  after_results
/-- The second result is the signal's last three steps. -/
theorem W3_v2 (c : Dev nD) : W3 m c (Proc.devRef .tc main_v2)
    = extractStridedSlice S8x3x2048 ![0, 4093, 0] (m ((c : Thread nD τ).loc main_arg0)) slices_S8x4096x2048_S8x3x2048_0_4093_0 := by
  show StableHlo.after hostOps1 _ (Proc.devRef .tc main_v2) = _
  after_results
  exact congrArg (fun x => extractStridedSlice S8x3x2048 ![0, 4093, 0] x slices_S8x4096x2048_S8x3x2048_0_4093_0)
    ((W2_of_ne m c main_arg0 (by decide)).trans (W1_of m c main_arg0 (by decide)))

/-- THE FRAME: every weakly fair execution terminates, nothing faulting, and the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_arg0 m c), (h c _ (mem_uc main_arg1 (by decide))).trans (W3_arg1 m c)⟩)
    (run_main m ρ)

end Run

end Cert.KernelIdeal.Conv

end
-- ==== Proof.KIPayload.lean ====
import proofs.«127751_j35545149342129_1_alg».proof.Proof.KIBody
import Idealize.ShloMosaic.Lib.ValueIdx
import Idealize.ShloMosaic.Lib.Pipeline.Value
import Idealize.ShloMosaic.PureOps.Ideal.Laws

/-!
# The output block at a row and a channel

Over the extended reals the block the body stores, read at row `r` and channel `d`, is the four-tap sum
`0 + w[3,d]·x[r,d] + w[2,d]·x[r-1,d] + w[1,d]·x[r-2,d] + w[0,d]·x[r-3,d]`, where `x[r-k,d]` is the sample `k` rows
above row `r`: a row of the block itself when `k ≤ r`, otherwise one of the last `k` of the eight rows that precede
the block, and zero when the block is the first of its sequence. Each layout operation of the body is first read at
explicit coordinates (the two shape casts around the block's leading unit axis, a row of the weights repeated over the
rows, `k` rows laid above the block's first `512 - k`, the select on "grid coordinate 1 is zero"); the arithmetic
is then the extended reals' own, with no rounding.
-/

noncomputable section

namespace Cert.KernelIdeal.Conv

open Cert.KernelIdeal Cert.KernelIdeal.Gen Idealize.ShloMosaic Idealize.ShloMosaic.ValueIdx

namespace Payload

/-! ## The layout operations of the body, read at explicit coordinates -/

section Layout
variable {α : Type}

/-- Dropping the block's leading unit axis: row `r`, channel `d` reads `(0, r, d)`. -/
theorem cast_drop_apply (v : S1x512x2048.Idx → α) (h : S1x512x2048.ShapeCasts S512x2048) (r : Fin 512) (d : Fin 2048) :
    shapeCast S512x2048 v h (ix2 r d) = v (ix3 (0 : Fin 1) r d) :=
  shapeCast_apply v h (ix2 r d) (ix3 (0 : Fin 1) r d) (by
    rw [Shape.rowMajor_val_three, Shape.rowMajor_val_two]
    show (0 * 512 + r.val) * 2048 + d.val = r.val * 2048 + d.val
    omega)

/-- Putting the unit axis back: `(0, r, d)` reads row `r`, channel `d`. -/
theorem cast_add_apply (v : S512x2048.Idx → α) (h : S512x2048.ShapeCasts S1x512x2048) (r : Fin 512) (d : Fin 2048) :
    shapeCast S1x512x2048 v h (ix3 (0 : Fin 1) r d) = v (ix2 r d) :=
  shapeCast_apply v h (ix3 (0 : Fin 1) r d) (ix2 r d) (by
    rw [Shape.rowMajor_val_three, Shape.rowMajor_val_two]
    show r.val * 2048 + d.val = (0 * 512 + r.val) * 2048 + d.val
    omega)

/-- The same for the eight preceding rows: row `b`, channel `d` reads `(0, b, d)`. -/
theorem cast_drop8_apply (v : S1x8x2048.Idx → α) (h : S1x8x2048.ShapeCasts S8x2048) (b : Fin 8) (d : Fin 2048) :
    shapeCast S8x2048 v h (ix2 b d) = v (ix3 (0 : Fin 1) b d) :=
  shapeCast_apply v h (ix2 b d) (ix3 (0 : Fin 1) b d) (by
    rw [Shape.rowMajor_val_three, Shape.rowMajor_val_two]
    show (0 * 8 + b.val) * 2048 + d.val = b.val * 2048 + d.val
    omega)

/-- Row `o` of the weights, cast to a vector and back and repeated over the 512 rows, reads tap `o`'s weight for the
    channel at every row. -/
theorem wrow_apply (x : S4x2048.Idx → α) (o : ℕ) (ho : o < 4)
    (h4 : S4x2048.ShapeCasts S4x2048) (hs : S4x2048.Slices ![o, 0] S1x2048)
    (h1 : S1x2048.ShapeCasts S2048) (h2 : S2048.ShapeCasts S1x2048) (hb : S1x2048.Broadcasts S512x2048)
    (r : Fin 512) (d : Fin 2048) :
    broadcastTo S512x2048 (shapeCast S1x2048 (shapeCast S2048 (extractStridedSlice S1x2048 ![o, 0] (shapeCast S4x2048 x h4) hs) h1) h2) hb (ix2 r d)
      = x (ix2 (⟨o, ho⟩ : Fin 4) d) := by
  rw [shapeCast_shapeCast, shapeCast_self]
  refine (broadcastTo_apply _ hb (ix2 r d) (ix2 (0 : Fin 1) d) (fun a => match a with | ⟨0, _⟩ => rfl | ⟨1, _⟩ => rfl)).trans ?_
  exact extractStridedSlice_apply _ x hs (ix2 (0 : Fin 1) d) (ix2 (⟨o, ho⟩ : Fin 4) d) (fun a => match a with
    | ⟨0, _⟩ => by show o = o + 0; omega
    | ⟨1, _⟩ => by show d.val = 0 + d.val; omega)

/-- The last `k` of the eight preceding rows (those from row `o = 8 - k` on), read at row `q` of the `k`: row
    `o + q` of the eight. -/
theorem tail_apply (k o : ℕ) (hok : o + k = 8) (x1 : S1x8x2048.Idx → α) (h3 : S1x8x2048.ShapeCasts S8x2048)
    (hs : S8x2048.Slices ![o, 0] ⟨2, ![k, 2048]⟩) (q : Fin k) (d : Fin 2048) :
    extractStridedSlice ⟨2, ![k, 2048]⟩ ![o, 0] (shapeCast S8x2048 x1 h3) hs (ix2 q d)
      = x1 (ix3 (0 : Fin 1) (⟨o + q.val, by omega⟩ : Fin 8) d) := by
  refine (extractStridedSlice_apply _ _ hs (ix2 q d) (ix2 (⟨o + q.val, by omega⟩ : Fin 8) d) (fun a => match a with
    | ⟨0, _⟩ => rfl
    | ⟨1, _⟩ => by show d.val = 0 + d.val; omega)).trans ?_
  exact cast_drop8_apply x1 h3 _ d

/-- `k` rows `top` laid above the first `n = 512 - k` rows of the block: row `r` reads `top` when `r < k`, and the
    block `k` rows higher otherwise. -/
theorem shift_apply (k n : ℕ) (hkn : k + n = 512) (top : (⟨2, ![k, 2048]⟩ : Shape).Idx → α) (cur : S512x2048.Idx → α)
    (hs : S512x2048.Slices ![0, 0] ⟨2, ![n, 2048]⟩)
    (hc : Shape.Concatenates [⟨2, ![k, 2048]⟩, ⟨2, ![n, 2048]⟩] S512x2048 0) (r : Fin 512) (d : Fin 2048) :
    concatenate S512x2048 0 [⟨⟨2, ![k, 2048]⟩, top⟩, ⟨⟨2, ![n, 2048]⟩, extractStridedSlice ⟨2, ![n, 2048]⟩ ![0, 0] cur hs⟩] hc (ix2 r d)
      = if h : r.val < k then top (ix2 (⟨r.val, h⟩ : Fin k) d) else cur (ix2 (⟨r.val - k, by omega⟩ : Fin 512) d) := by
  by_cases h : r.val < k
  · rw [dif_pos h]
    exact concatenate_pair_apply_left 0 top _ hc (ix2 r d) rfl (ix2 (⟨r.val, h⟩ : Fin k) d)
      (fun b => match b with | ⟨0, _⟩ => rfl | ⟨1, _⟩ => rfl)
  · rw [dif_neg h]
    have hn : r.val - k < n := by omega
    refine (concatenate_pair_apply_right 0 top _ hc (ix2 r d) rfl rfl (ix2 (⟨r.val - k, hn⟩ : Fin n) d)
      (fun b hb => match b, hb with
        | ⟨0, _⟩, hb => absurd rfl hb
        | ⟨1, _⟩, _ => rfl)
      (by show r.val - k + k = r.val; omega)).trans ?_
    exact extractStridedSlice_apply _ cur hs _ (ix2 (⟨r.val - k, by omega⟩ : Fin 512) d) (fun a => match a with
      | ⟨0, _⟩ => by show r.val - k = 0 + (r.val - k); omega
      | ⟨1, _⟩ => by show d.val = 0 + d.val; omega)

/-- The comparison of a grid coordinate below 8 with zero selects its first operand exactly at coordinate zero. -/
theorem select_first {β : Type} (n : ℕ) (hn : n < 8) (A B : β) :
    Scalar.select (Scalar.cmpi .eq (BitVec.ofNat 32 n) 0#32) A B = if n = 0 then A else B := by
  interval_cases n <;> rfl

/-- The same select between two vectors, read at an index. -/
theorem select_first_apply {ι β : Type} (n : ℕ) (hn : n < 8) (A B : ι → β) (j : ι) :
    (Scalar.select (Scalar.cmpi .eq (BitVec.ofNat 32 n) 0#32) A B) j = if n = 0 then A j else B j := by
  rw [select_first n hn]; split <;> rfl

end Layout

end Payload

/-! ## The shifted samples -/

/-- The sample `k` rows above row `r` of the block: a row of the block itself when `k ≤ r`; otherwise one of the
    last `k` of the eight rows that precede the block, or zero when the block is the first of its sequence (grid
    coordinate 1 is zero), where nothing precedes it. -/
def shifted (i : grid0.Coords) (x0 : Vec Ideal S1x512x2048 .f32) (x1 : Vec Ideal S1x8x2048 .f32) (k : ℕ) (r : Fin 512) (d : Fin 2048) : EReal :=
  if h : k ≤ r.val then x0 (ix3 (0 : Fin 1) ⟨r.val - k, by omega⟩ d)
  else if (i 1).val = 0 then 0 else x1 (ix3 (0 : Fin 1) ⟨(8 + r.val - k) % 8, Nat.mod_lt _ (by decide)⟩ d)

namespace Payload

/-- The body's shifted copy of the block — the last `k` preceding rows, or zeros at a sequence's first block, above
    the block's first `512 - k` rows — reads the sample `k` rows above, at every row and channel. -/
theorem shifted_eq (i : grid0.Coords) (x0 : Vec Ideal S1x512x2048 .f32) (x1 : Vec Ideal S1x8x2048 .f32)
    (k o n : ℕ) (hok : o + k = 8) (hkn : k + n = 512)
    (h2 : S1x512x2048.ShapeCasts S512x2048) (h3 : S1x8x2048.ShapeCasts S8x2048)
    (hs8 : S8x2048.Slices ![o, 0] ⟨2, ![k, 2048]⟩) (hs : S512x2048.Slices ![0, 0] ⟨2, ![n, 2048]⟩)
    (hc : Shape.Concatenates [⟨2, ![k, 2048]⟩, ⟨2, ![n, 2048]⟩] S512x2048 0) (r : Fin 512) (d : Fin 2048) :
    concatenate S512x2048 0
        [⟨⟨2, ![k, 2048]⟩, Scalar.select (Scalar.cmpi .eq (BitVec.ofNat 32 (i 1).val) 0#32)
            (broadcast ⟨2, ![k, 2048]⟩ (Scalar.ofBits (F := Ideal) .f32 0x00000000#32))
            (extractStridedSlice ⟨2, ![k, 2048]⟩ ![o, 0] (shapeCast S8x2048 x1 h3) hs8)⟩,
         ⟨⟨2, ![n, 2048]⟩, extractStridedSlice ⟨2, ![n, 2048]⟩ ![0, 0] (shapeCast S512x2048 x0 h2) hs⟩] hc (ix2 r d)
      = shifted i x0 x1 k r d := by
  have hi : (i 1).val < 8 := (i 1).isLt
  rw [shift_apply k n hkn _ _ hs hc r d]
  unfold shifted
  by_cases h : r.val < k
  · rw [dif_pos h, dif_neg (show ¬ k ≤ r.val by omega), select_first_apply _ hi]
    by_cases h0 : (i 1).val = 0
    · rw [if_pos h0, if_pos h0]; exact Ideal.ofBits_zero_f32
    · rw [if_neg h0, if_neg h0, tail_apply k o hok x1 h3 hs8 ⟨r.val, h⟩ d]
      exact congrArg (fun b : Fin 8 => x1 (ix3 (0 : Fin 1) b d)) (Fin.ext (by show o + r.val = (8 + r.val - k) % 8; omega))
  · rw [dif_neg h, dif_pos (show k ≤ r.val by omega)]
    exact cast_drop_apply x0 h2 _ d

/-! ## The stored value's operands at a row and a channel -/

/-- The fourth product's weight: tap 0's. -/
theorem pay7_apply (x2 : Vec Ideal S4x2048 .f32) (r : Fin 512) (d : Fin 2048) :
    k0_pay7 (F := Ideal) x2 (ix2 r d) = x2 (ix2 (0 : Fin 4) d) := by
  unfold k0_pay7 k0_pay4
  exact wrow_apply x2 0 (by decide) _ _ _ _ _ r d

/-- The fourth product's sample: three rows above. -/
theorem pay6_apply (i : grid0.Coords) (x0 : Vec Ideal S1x512x2048 .f32) (x1 : Vec Ideal S1x8x2048 .f32) (r : Fin 512) (d : Fin 2048) :
    k0_pay6 (F := Ideal) i x0 x1 (ix2 r d) = shifted i x0 x1 3 r d := by
  unfold k0_pay6 k0_pay2 k0_pay3
  exact shifted_eq i x0 x1 3 5 509 rfl rfl _ _ _ _ _ r d

/-- The first three products, summed onto zero. -/
theorem pay5_apply (i : grid0.Coords) (x0 : Vec Ideal S1x512x2048 .f32) (x1 : Vec Ideal S1x8x2048 .f32) (x2 : Vec Ideal S4x2048 .f32)
    (r : Fin 512) (d : Fin 2048) :
    k0_pay5 (F := Ideal) i x0 x1 x2 (ix2 r d)
      = 0 + x2 (ix2 (3 : Fin 4) d) * x0 (ix3 (0 : Fin 1) r d) + x2 (ix2 (2 : Fin 4) d) * shifted i x0 x1 1 r d
          + x2 (ix2 (1 : Fin 4) d) * shifted i x0 x1 2 r d := by
  unfold k0_pay5 k0_pay2 k0_pay3 k0_pay4
  refine congrArg₂ (· + ·) (congrArg₂ (· + ·) (congrArg₂ (· + ·) ?_ (congrArg₂ (· * ·) ?_ ?_)) (congrArg₂ (· * ·) ?_ ?_)) (congrArg₂ (· * ·) ?_ ?_)
  · exact Ideal.ofBits_zero_f32
  · exact wrow_apply x2 3 (by decide) _ _ _ _ _ r d
  · exact cast_drop_apply x0 _ r d
  · exact wrow_apply x2 2 (by decide) _ _ _ _ _ r d
  · exact shifted_eq i x0 x1 1 7 511 rfl rfl _ _ _ _ _ r d
  · exact wrow_apply x2 1 (by decide) _ _ _ _ _ r d
  · exact shifted_eq i x0 x1 2 6 510 rfl rfl _ _ _ _ _ r d

/-- The stored value: the sum so far plus the fourth product, under the block's leading unit axis. -/
theorem pay1_apply (a b c : FVec Ideal S512x2048 .f32) (r : Fin 512) (d : Fin 2048) :
    k0_pay1 (F := Ideal) a b c (ix3 (0 : Fin 1) r d) = a (ix2 r d) + c (ix2 r d) * b (ix2 r d) := by
  unfold k0_pay1
  exact cast_add_apply _ _ r d

/-- The three offsets of a whole rank-3 buffer are zero. -/
theorem zeros3 : (![0, 0, 0] : Fin 3 → ℕ) = fun _ => 0 :=
  funext fun a => match a with | ⟨0, _⟩ => rfl | ⟨1, _⟩ => rfl | ⟨2, _⟩ => rfl
/-- The two offsets of a whole rank-2 buffer are zero. -/
theorem zeros2 : (![0, 0] : Fin 2 → ℕ) = fun _ => 0 :=
  funext fun a => match a with | ⟨0, _⟩ => rfl | ⟨1, _⟩ => rfl

end Payload

/-! ## The output block -/

/-- The one store takes the whole buffer and every load reads a whole buffer, so the output block is the stored
    value of the input blocks themselves. -/
theorem outBlk_eq (i : grid0.Coords) (x0 : Vec Ideal S1x512x2048 .f32) (x1 : Vec Ideal S1x8x2048 .f32) (x2 : Vec Ideal S4x2048 .f32) :
    outBlk (F := Ideal) i x0 x1 x2 = k0_pay1 (k0_pay5 i x0 x1 x2) (k0_pay6 i x0 x1) (k0_pay7 x2) := by
  unfold outBlk
  rw [View.canon_unit_zero Payload.zeros3]
  simp only [View.ld_unit_zero (S := S1x512x2048) Payload.zeros3, View.ld_unit_zero (S := S1x8x2048) Payload.zeros3,
    View.ld_unit_zero (S := S4x2048) Payload.zeros2]

/-- THE OUTPUT BLOCK AT A ROW AND A CHANNEL: the four taps' products summed onto zero, newest sample first — the
    block's own row under tap 3's weight, then the samples one, two and three rows above under the weights of taps
    2, 1 and 0. -/
theorem outBlk_apply (i : grid0.Coords) (x0 : Vec Ideal S1x512x2048 .f32) (x1 : Vec Ideal S1x8x2048 .f32) (x2 : Vec Ideal S4x2048 .f32)
    (r : Fin 512) (d : Fin 2048) :
    outBlk (F := Ideal) i x0 x1 x2 (ix3 (0 : Fin 1) r d)
      = 0 + x2 (ix2 (3 : Fin 4) d) * x0 (ix3 (0 : Fin 1) r d) + x2 (ix2 (2 : Fin 4) d) * shifted i x0 x1 1 r d
          + x2 (ix2 (1 : Fin 4) d) * shifted i x0 x1 2 r d + x2 (ix2 (0 : Fin 4) d) * shifted i x0 x1 3 r d := by
  rw [outBlk_eq, Payload.pay1_apply, Payload.pay5_apply, Payload.pay6_apply, Payload.pay7_apply]

end Cert.KernelIdeal.Conv

end
-- ==== Proof.Spec.lean ====
import Idealize.ShloMosaic.PureOps.Ideal
import Idealize.ShloMosaic.Lib.ValueIdx

/-!
# A causal depthwise convolution with four taps, over the extended reals

For a signal `x[b, t, d]` (8 batches, 4096 steps, 2048 channels) and per-channel weights `w[d, k]`, `k < 4`, the
result at `(b, t, d)` is `Σ_{m < 4} w[d, 3 - m] · x[b, t - m, d]`, a sample before the start of the sequence
counting as zero. The sum is written in two orders — newest sample first with the weight on the left, and oldest
sample first with the sample on the left — which agree because addition and multiplication of extended reals
are commutative and associative; no finiteness is needed, and `0 · (±∞) = 0` makes a zero sample's product zero
whatever the weight.
-/

noncomputable section

namespace Cert.Spec

open Idealize.ShloMosaic Idealize.ShloMosaic.ValueIdx

/-- The signal's and the result's shape. -/
abbrev SX : Shape := ⟨3, ![8, 4096, 2048]⟩
/-- The weights' shape: channel, then tap. -/
abbrev SW : Shape := ⟨2, ![2048, 4]⟩

/-- The sample `m` steps before step `t`, zero before the sequence starts. -/
def tap (x : SX.Idx → EReal) (m : ℕ) (b : Fin 8) (t : Fin 4096) (d : Fin 2048) : EReal :=
  if m ≤ t.val then x (ix3 b ⟨t.val - m, lt_of_le_of_lt (Nat.sub_le _ _) t.isLt⟩ d) else 0

/-- The convolution at coordinates, newest sample first, weight on the left. -/
def convAt (x : SX.Idx → EReal) (w : SW.Idx → EReal) (b : Fin 8) (t : Fin 4096) (d : Fin 2048) : EReal :=
  0 + w (ix2 d (3 : Fin 4)) * tap x 0 b t d + w (ix2 d (2 : Fin 4)) * tap x 1 b t d
    + w (ix2 d (1 : Fin 4)) * tap x 2 b t d + w (ix2 d (0 : Fin 4)) * tap x 3 b t d

/-- The same, oldest sample first, sample on the left. -/
def convAt' (x : SX.Idx → EReal) (w : SW.Idx → EReal) (b : Fin 8) (t : Fin 4096) (d : Fin 2048) : EReal :=
  0 + tap x 3 b t d * w (ix2 d (0 : Fin 4)) + tap x 2 b t d * w (ix2 d (1 : Fin 4))
    + tap x 1 b t d * w (ix2 d (2 : Fin 4)) + tap x 0 b t d * w (ix2 d (3 : Fin 4))

/-- The two orders of summation agree. -/
theorem convAt'_eq (x : SX.Idx → EReal) (w : SW.Idx → EReal) (b : Fin 8) (t : Fin 4096) (d : Fin 2048) :
    convAt' x w b t d = convAt x w b t d := by
  unfold convAt' convAt
  simp only [zero_add, mul_comm (tap x _ b t d)]
  abel

/-- The convolution as one function of the two arrays. -/
def conv (x : SX.Idx → EReal) (w : SW.Idx → EReal) : SX.Idx → EReal :=
  fun i => convAt x w (i 0) (i 1) (i 2)

theorem conv_ix3 (x : SX.Idx → EReal) (w : SW.Idx → EReal) (b : Fin 8) (t : Fin 4096) (d : Fin 2048) :
    conv x w (ix3 b t d) = convAt x w b t d := rfl

end Cert.Spec

end
-- ==== Proof.KIFinal.lean ====
import proofs.«127751_j35545149342129_1_alg».proof.Proof.KIBody
import proofs.«127751_j35545149342129_1_alg».proof.Proof.KIPayload
import proofs.«127751_j35545149342129_1_alg».proof.Proof.Spec
import Idealize.ShloMosaic.Lib.Pipeline.Value
import Idealize.ShloMosaic.Lib.ValueIdx

/-!
# From the blocks to the array: the output after all sixty-four points is the convolution

The grid's point `(b, s)` reads rows `512·s … 512·s + 511` of batch `b` of the signal, the eight rows before them
(rows `0 … 7` when `s = 0`, which the body then replaces by zeros), and the whole of the transposed weights, and
writes rows `512·s … 512·s + 511` of batch `b` of the output. Each input block is read here at explicit coordinates of
the array it is cut from; a read of the two signal blocks shifted back by `k ≤ 8` rows is then the sample `k` steps
before the row, zero before the sequence starts; so the block a point writes is that point's block of the
four-tap causal convolution of the arrays as the region found them. The sixty-four output blocks tile the output array
(row `t'` of batch `b'` lies in the block of point `(b', t' / 512)`), hence the array ends holding the convolution.
-/

noncomputable section

namespace Cert.KernelIdeal.Conv

open Cert.KernelIdeal Cert.KernelIdeal.Gen Idealize.ShloMosaic Idealize.ShloMosaic.TcCoe Idealize.ShloMosaic.ValueIdx Idealize.ShloMosaic.Pipeline

/-- The windows' block indices, decided over the sixty-four points. -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 64 * (grid0.coords t 1).val - 1 ∧ win0_1.index t (2 : Fin 3) = 0
    ∧ win0_2.index t (0 : Fin 2) = 0 ∧ win0_2.index t (1 : Fin 2) = 0
    ∧ win0_3.index t (0 : Fin 3) = (grid0.coords t 0).val ∧ win0_3.index t (1 : Fin 3) = (grid0.coords t 1).val ∧ win0_3.index t (2 : Fin 3) = 0 :=
  (by decide +kernel : ∀ t : Fin grid0.N, _)

variable (V : (c : Dev nD) → (b : Ref sig .tc) → Buf (Elt Ideal) ((c : Thread nD τ).loc b))

/-- The current rows' block at explicit coordinates: row `r` of the block at point `(b, s)` is row `512·s + r` of batch `b`. -/
theorem iblk0_apply (c : Dev nD) (t : Fin cfg0.N) (b s : Fin 8) (hb : (grid0.coords t 0).val = b.val) (hs : (grid0.coords t 1).val = s.val)
    (r : Fin 512) (d : Fin 2048) :
    (iblk V c 0 t : Vec Ideal S1x512x2048 .f32) (ix3 (0 : Fin 1) r d)
      = (V c main_arg0 : S8x4096x2048.Idx → EReal) (ix3 b ⟨512 * s.val + r.val, by have := s.isLt; have := r.isLt; omega⟩ d) := by
  obtain ⟨e0, e1, e2, -⟩ := idx_facts t
  unfold iblk
  rw [View.read_apply]
  show (V c main_arg0 : S8x4096x2048.Idx → EReal) (((cfg0.win 0).blk t).view.emb (ix3 (0 : Fin 1) r d)) = _
  refine congrArg _ ?_
  funext a; apply Fin.ext
  match a with
  | ⟨0, _⟩ => show win0_0.index t (0 : Fin 3) * 1 + 1 * (0 : Fin 1).val = b.val; rw [e0, hb]; simp
  | ⟨1, _⟩ => show win0_0.index t (1 : Fin 3) * 512 + 1 * r.val = 512 * s.val + r.val; rw [e1, hs]; omega
  | ⟨2, _⟩ => show win0_0.index t (2 : Fin 3) * 2048 + 1 * d.val = d.val; rw [e2]; omega

/-- The preceding rows' block: its row `q` is row `8·(64·s − 1) + q` of batch `b`, the subtraction cut off at zero
    (so at `s = 0` it is row `q`, and otherwise row `512·s − 8 + q`). -/
theorem iblk1_apply (c : Dev nD) (t : Fin cfg0.N) (b s : Fin 8) (hb : (grid0.coords t 0).val = b.val) (hs : (grid0.coords t 1).val = s.val)
    (q : Fin 8) (d : Fin 2048) :
    (iblk V c 1 t : Vec Ideal S1x8x2048 .f32) (ix3 (0 : Fin 1) q d)
      = (V c main_arg0 : S8x4096x2048.Idx → EReal) (ix3 b ⟨(64 * s.val - 1) * 8 + q.val, by have := s.isLt; have := q.isLt; omega⟩ d) := by
  obtain ⟨-, -, -, e0, e1, e2, -⟩ := idx_facts t
  unfold iblk
  rw [View.read_apply]
  show (V c main_arg0 : S8x4096x2048.Idx → EReal) (((cfg0.win 1).blk t).view.emb (ix3 (0 : Fin 1) q d)) = _
  refine congrArg _ ?_
  funext a; apply Fin.ext
  match a with
  | ⟨0, _⟩ => show win0_1.index t (0 : Fin 3) * 1 + 1 * (0 : Fin 1).val = b.val; rw [e0, hb]; simp
  | ⟨1, _⟩ => show win0_1.index t (1 : Fin 3) * 8 + 1 * q.val = (64 * s.val - 1) * 8 + q.val; rw [e1, hs]; omega
  | ⟨2, _⟩ => show win0_1.index t (2 : Fin 3) * 2048 + 1 * d.val = d.val; rw [e2]; omega

/-- The weights' block is the whole transposed-weights array. -/
theorem iblk2_apply (c : Dev nD) (t : Fin cfg0.N) (k : Fin 4) (d : Fin 2048) :
    (iblk V c 2 t : Vec Ideal S4x2048 .f32) (ix2 k d) = (V c main_v0 : S4x2048.Idx → EReal) (ix2 k d) := by
  obtain ⟨-, -, -, -, -, -, e0, e1, -⟩ := idx_facts t
  unfold iblk
  rw [View.read_apply]
  show (V c main_v0 : S4x2048.Idx → EReal) (((cfg0.win 2).blk t).view.emb (ix2 k d)) = _
  refine congrArg _ ?_
  funext a; apply Fin.ext
  match a with
  | ⟨0, _⟩ => show win0_2.index t (0 : Fin 2) * 4 + 1 * k.val = k.val; rw [e0]; omega
  | ⟨1, _⟩ => show win0_2.index t (1 : Fin 2) * 2048 + 1 * d.val = d.val; rw [e1]; omega

/-- A shifted read of the two blocks is the signal's sample `k` steps back: inside the current rows while `k ≤ r`, in the
    preceding eight rows otherwise, and zero before the sequence starts. Stated for any blocks that read the signal as the
    windows at point `(b, s)` do. -/
theorem shifted_eq_tap (i : grid0.Coords) (x : S8x4096x2048.Idx → EReal) (x0 : Vec Ideal S1x512x2048 .f32) (x1 : Vec Ideal S1x8x2048 .f32)
    (b s : Fin 8) (hs : (i 1).val = s.val)
    (h0 : ∀ (r : Fin 512) (d : Fin 2048), x0 (ix3 (0 : Fin 1) r d) = x (ix3 b ⟨512 * s.val + r.val, by have := s.isLt; have := r.isLt; omega⟩ d))
    (h1 : ∀ (q : Fin 8) (d : Fin 2048), x1 (ix3 (0 : Fin 1) q d) = x (ix3 b ⟨(64 * s.val - 1) * 8 + q.val, by have := s.isLt; have := q.isLt; omega⟩ d))
    (k : ℕ) (hk : k ≤ 8) (r : Fin 512) (d : Fin 2048) :
    shifted i x0 x1 k r d = Cert.Spec.tap x k b ⟨512 * s.val + r.val, by have := s.isLt; have := r.isLt; omega⟩ d := by
  have hsl := s.isLt
  have hrl := r.isLt
  unfold shifted Cert.Spec.tap
  by_cases hkr : k ≤ r.val
  · rw [dif_pos hkr, if_pos (show k ≤ 512 * s.val + r.val by omega), h0]
    refine congrArg x ?_
    refine congrArg (fun z => ix3 b z d) (Fin.ext ?_)
    show 512 * s.val + (r.val - k) = 512 * s.val + r.val - k
    omega
  · rw [dif_neg hkr]
    by_cases hs0 : (i 1).val = 0
    · rw [if_pos hs0, if_neg (show ¬ k ≤ 512 * s.val + r.val by omega)]
    · rw [if_neg hs0, if_pos (show k ≤ 512 * s.val + r.val by omega), h1]
      refine congrArg x ?_
      refine congrArg (fun z => ix3 b z d) (Fin.ext ?_)
      show (64 * s.val - 1) * 8 + (8 + r.val - k) % 8 = 512 * s.val + r.val - k
      omega

/-- The transposed weights read the way the specification indexes them: channel first. -/
abbrev wOf (c : Dev nD) : Cert.Spec.SW.Idx → EReal := fun j => V c main_v0 (ix2 (j 1) (j 0))

/-- An index of an output block is `(0, r, d)`. -/
theorem exists_ix3_block (y : S1x512x2048.Idx) : ∃ (r : Fin 512) (d : Fin 2048), y = ix3 (0 : Fin 1) r d :=
  ⟨y 1, y 2, (eq_ix3 y).trans (congrArg (fun z : Fin 1 => ix3 z (y 1 : Fin 512) (y 2 : Fin 2048)) (Subsingleton.elim _ _))⟩

/-- What point `(b, s)` leaves in the output's buffer at row `r`, channel `d`: the convolution at row `512·s + r` of
    batch `b`. -/
theorem out_at (c : Dev nD) (t : Fin cfg0.N) (b s : Fin 8) (hb : (grid0.coords t 0).val = b.val) (hs : (grid0.coords t 1).val = s.val)
    (r : Fin 512) (d : Fin 2048) :
    outBlk (F := Ideal) (grid0.coords t) (iblk V c 0 t) (iblk V c 1 t) (iblk V c 2 t) (ix3 (0 : Fin 1) r d)
      = Cert.Spec.convAt (V c main_arg0) (wOf V c) b ⟨512 * s.val + r.val, by have := s.isLt; have := r.isLt; omega⟩ d := by
  have hsl := s.isLt
  have hrl := r.isLt
  rw [outBlk_apply]
  have hsh : ∀ k, k ≤ 8 → shifted (grid0.coords t) (iblk V c 0 t) (iblk V c 1 t) k r d
      = Cert.Spec.tap (V c main_arg0) k b ⟨512 * s.val + r.val, by omega⟩ d := fun k hk =>
    shifted_eq_tap (grid0.coords t) (V c main_arg0) (iblk V c 0 t) (iblk V c 1 t) b s hs
      (fun r d => iblk0_apply V c t b s hb hs r d) (fun q d => iblk1_apply V c t b s hb hs q d) k hk r d
  rw [hsh 1 (by omega), hsh 2 (by omega), hsh 3 (by omega), iblk0_apply V c t b s hb hs r d,
    iblk2_apply V c t 3 d, iblk2_apply V c t 2 d, iblk2_apply V c t 1 d, iblk2_apply V c t 0 d]
  unfold Cert.Spec.convAt
  have h0 : Cert.Spec.tap (V c main_arg0) 0 b ⟨512 * s.val + r.val, by omega⟩ d
      = (V c main_arg0 : S8x4096x2048.Idx → EReal) (ix3 b ⟨512 * s.val + r.val, by omega⟩ d) := by
    unfold Cert.Spec.tap
    rw [if_pos (Nat.zero_le _)]
    rfl
  rw [h0]

/-- Where the output block's element `(0, r, d)` at point `(b, s)` sits in the output array. -/
theorem emb3 (t : Fin cfg0.N) (b s : Fin 8) (hb : (grid0.coords t 0).val = b.val) (hs : (grid0.coords t 1).val = s.val)
    (r : Fin 512) (d : Fin 2048) :
    ((cfg0.win 3).blk t).view.emb (ix3 (0 : Fin 1) r d)
      = (ix3 b ⟨512 * s.val + r.val, by have := s.isLt; have := r.isLt; omega⟩ d : S8x4096x2048.Idx) := by
  obtain ⟨-, -, -, -, -, -, -, -, e0, e1, e2⟩ := idx_facts t
  funext a; apply Fin.ext
  match a with
  | ⟨0, _⟩ => show win0_3.index t (0 : Fin 3) * 1 + 1 * (0 : Fin 1).val = b.val; rw [e0, hb]; simp
  | ⟨1, _⟩ => show win0_3.index t (1 : Fin 3) * 512 + 1 * r.val = 512 * s.val + r.val; rw [e1, hs]; omega
  | ⟨2, _⟩ => show win0_3.index t (2 : Fin 3) * 2048 + 1 * d.val = d.val; rw [e2]; omega

/-- What point `t` writes back is its block of the convolution of the arrays as the region found them. -/
theorem flushed_eq (c : Dev nD) (t : Fin cfg0.N) :
    (dat (F := Ideal) V c).flushed 3 t
      = ((cfg0.win 3).blk t).view.read (Elt Ideal) (Cert.Spec.conv (V c main_arg0) (wOf V c)) := by
  show (cfg0.win 3).cut (grid0.coords t) ((dat (F := Ideal) V c).after 3 t) = _
  rw [after_3]
  funext y
  obtain ⟨r, d, rfl⟩ := exists_ix3_block y
  have hb8 : (grid0.coords t 0).val < 8 := (grid0.coords t 0).isLt
  have hs8 : (grid0.coords t 1).val < 8 := (grid0.coords t 1).isLt
  rw [View.read_apply]
  show outBlk (F := Ideal) (grid0.coords t) (iblk V c 0 t) (iblk V c 1 t) (iblk V c 2 t) (ix3 (0 : Fin 1) r d)
    = Cert.Spec.conv (V c main_arg0) (wOf V c) (((cfg0.win 3).blk t).view.emb (ix3 (0 : Fin 1) r d))
  rw [emb3 t ⟨_, hb8⟩ ⟨_, hs8⟩ rfl rfl r d, Cert.Spec.conv_ix3]
  exact out_at V c t ⟨_, hb8⟩ ⟨_, hs8⟩ rfl rfl r d

/-- An index of the output array is in point `t`'s block iff each coordinate is in the block's range on its axis. -/
theorem mem_blk3 (t : Fin cfg0.N) (i : S8x4096x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v1).slice (win0_3.rect t)).set ↔ _
  rw [View.set_slice_whole, Rect.mem_set_unit]
  exact Iff.rfl

/-- Every pair of a batch and a block of 512 rows is some point's. -/
theorem idx_onto3 : ∀ (q0 : Fin 8) (q1 : Fin 8), ∃ t : Fin cfg0.N,
    win0_3.index t (0 : Fin 3) = q0.val ∧ win0_3.index t (1 : Fin 3) = q1.val ∧ win0_3.index t (2 : Fin 3) = 0 :=
  (by decide +kernel : ∀ (q0 : Fin 8) (q1 : Fin 8), ∃ t : Fin grid0.N, _)

/-- The output blocks tile the output array: row `t'` of batch `b'` is in the block of the point `(b', t' / 512)`. -/
theorem cover3 (i : S8x4096x2048.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 2048 := (i 2).isLt
  obtain ⟨t, q0, q1, q2⟩ := idx_onto3 ⟨(i 0).val, hi0⟩ ⟨(i 1).val / 512, by omega⟩
  have q0' : win0_3.index t (0 : Fin 3) = (i 0).val := q0
  have q1' : win0_3.index t (1 : Fin 3) = (i 1).val / 512 := q1
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- The output array after all sixty-four points is the specification's convolution of the signal and of the weights
    (read back from their transpose) as the region found them. -/
theorem final (c : Dev nD) :
    (dat (F := Ideal) V c).arrAt 3 cfg0.N = Cert.Spec.conv (V c main_arg0) (fun j => V c main_v0 (ix2 (j 1) (j 0))) :=
  (dat (F := Ideal) V c).arrAt_eq_of_cover 3 (Cert.Spec.conv (V c main_arg0) (wOf V c)) (fun t _ => flushed_eq V c t) (fun i => cover3 i)

end Cert.KernelIdeal.Conv

end
-- ==== Proof.KIValue.lean ====
import proofs.«127751_j35545149342129_1_alg».proof.Proof.KIRun
import proofs.«127751_j35545149342129_1_alg».proof.Proof.KIFinal
import proofs.«127751_j35545149342129_1_alg».proof.Proof.Spec
import Idealize.ShloMosaic.Lib.Pipeline.Value
import Idealize.ShloMosaic.Lib.ValueIdx

/-!
# What the idealized kernel's run leaves in its results

The first result is the region's output array after the last write-back, which is the convolution of the arrays as
the region found them: the signal as launched, and the weights transposed — reading the transposed weights at
`(k, d)` is reading the weights at `(d, k)`, so the convolution is that of the launch contents. The second result is
the closing slice of the signal. Both arguments end as launched.
-/

noncomputable section

namespace Cert.KernelIdeal.Conv

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The transposed weights read at `(k, d)` are the weights at `(d, k)`. -/
theorem wt_read (c : Dev nD) :
    (fun j : Cert.Spec.SW.Idx => V1 m c main_v0 (ix2 (j 1) (j 0))) = m ((c : Thread nD τ).loc main_arg1) := by
  funext j
  rw [V1_v0]
  refine transpose_apply _ _ _ (ix2 (j 1) (j 0)) j ?_
  intro b
  match b with
  | ⟨0, _⟩ => rfl
  | ⟨1, _⟩ => rfl

/-- The first result is the convolution of the launch contents. -/
theorem result_eq (c : Dev nD) :
    W3 m c (Proc.devRef .tc main_v1) = Cert.Spec.conv (m ((c : Thread nD τ).loc main_arg0)) (m ((c : Thread nD τ).loc main_arg1)) := by
  rw [W3_v1, final (V1 m) c, V1_arg0, wt_read]

/-- THE RUN WITH ITS VALUES: every weakly fair execution terminates, nothing faulting; the first result is the
    convolution of the launch contents, the second the signal's last three steps, the arguments unchanged. -/
theorem run_values : θ_run defs (onTc (τ := τ) (main (F := Ideal))) ⟨m, fun _ => 0, ρ⟩ (fun r => ∀ c : Dev nD,
      r.2.mem ((c.tc : Thread nD τ).loc main_v1) = Cert.Spec.conv (m ((c.tc : Thread nD τ).loc main_arg0)) (m ((c.tc : Thread nD τ).loc main_arg1))
      ∧ r.2.mem ((c.tc : Thread nD τ).loc main_v2)
          = extractStridedSlice S8x3x2048 ![0, 4093, 0] (m ((c.tc : Thread nD τ).loc main_arg0)) slices_S8x4096x2048_S8x3x2048_0_4093_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (result_eq m c),
     (h c _ (mem_uc main_v2 (by decide))).trans (W3_v2 m c),
     (h c _ (mem_uc main_arg0 (by decide))).trans (W3_arg0 m c),
     (h c _ (mem_uc main_arg1 (by decide))).trans (W3_arg1 m c)⟩)
    (run_main m ρ)

end Cert.KernelIdeal.Conv

end
-- ==== Proof.RefValue.lean ====
import proofs.«127751_j35545149342129_1_alg».proof.Proof.Gen.ReferenceIdeal.Read
import proofs.«127751_j35545149342129_1_alg».proof.Proof.Spec
import Idealize.ShloMosaic.Lib.KernelVsHost
import Idealize.ShloMosaic.Lib.ValueIdx
import Idealize.ShloMosaic.PureOps.Ideal.Laws

/-!
# The reference's first result is the four-tap causal convolution

The reference pads the signal with three zero rows in front of the time axis, takes the four windows of
4096 rows that start at rows 0, 1, 2, 3 of the padded signal, multiplies window `k` by column `k` of the
weights (laid along the channel axis) and adds the four products to a zero array, in that order. Row
`t + k` of the padded signal is row `t + k - 3` of the signal when `3 ≤ t + k` and zero otherwise, which is
the sample `3 - k` steps before step `t`; so the sum at `(b, t, d)` is the convolution written oldest
sample first.
-/

noncomputable section

namespace Cert.RefValue

open Idealize.ShloMosaic Idealize.ShloMosaic.ValueIdx
open Cert.ReferenceIdeal Cert.ReferenceIdeal.Gen Cert.ReferenceIdeal.Read Cert.Spec

/-- The padding value, the integer zero converted to a float, is the extended real zero. -/
theorem padValue (i : S_.Idx) : val_main_call0_v0 (F := Ideal) i = (0 : EReal) := by
  rw [val_main_call0_v0_apply, val_main_c_apply]
  show ((((0#32 : BitVec 32).toInt : ℤ) : ℝ) : EReal) = 0
  simp

/-- Row `k + t` of the padded signal (`k ≤ 3`) is the sample `3 - k` steps before step `t`: the signal's row
    `k + t - 3` when that is not negative, the padding zero when it is. The index is any one with these
    coordinates. -/
theorem padded_read (x : (⟨S8x4096x2048, .f32⟩ : BufTy).Contents (Elt Ideal)) (k : ℕ) (hk : k ≤ 3)
    (b : Fin 8) (t : Fin 4096) (d : Fin 2048) (j : S8x4099x2048.Idx)
    (h0 : (j 0).val = b.val) (h1 : (j 1).val = k + t.val) (h2 : (j 2).val = d.val) :
    val_main_v0 (F := Ideal) x j = tap x (3 - k) b t d := by
  unfold val_main_v0 tap
  by_cases h : 3 - k ≤ t.val
  · rw [if_pos h]
    refine pad_apply_of_inside _ _ _ x _ _ _ j
      (ix3 b ⟨t.val - (3 - k), lt_of_le_of_lt (Nat.sub_le _ _) t.isLt⟩ d) (fun a => ?_)
    match a with
    | ⟨0, _⟩ => show (j 0).val = 0 + b.val * (0 + 1); omega
    | ⟨1, _⟩ => show (j 1).val = 3 + (t.val - (3 - k)) * (0 + 1); omega
    | ⟨2, _⟩ => show (j 2).val = 0 + d.val * (0 + 1); omega
  · rw [if_neg h]
    refine (pad_apply_of_not_inside _ _ _ x _ _ _ j (1 : Fin 3) ?_).trans (padValue _)
    show ¬(3 ≤ (j 1).val ∧ ((j 1).val - 3) % (0 + 1) = 0 ∧ ((j 1).val - 3) / (0 + 1) < 4096)
    omega

/-- Column 0 of the weights, reshaped to a vector and laid along the channel axis, read at `(b, t, d)`. -/
theorem weight_read0 (w : (⟨S2048x4, .f32⟩ : BufTy).Contents (Elt Ideal)) (b : Fin 8) (t : Fin 4096) (d : Fin 2048) :
    val_main_v6 (F := Ideal) w (ix3 b t d) = w (ix2 d (0 : Fin 4)) := by
  rw [val_main_v6_apply, val_main_v5_apply, val_main_v4_apply, val_main_v3_apply]
  exact congrArg w (funext fun a => match a with
    | ⟨0, _⟩ => Fin.ext (Nat.div_one d.val)
    | ⟨1, _⟩ => Fin.ext rfl)

/-- Column 1 of the weights, likewise. -/
theorem weight_read1 (w : (⟨S2048x4, .f32⟩ : BufTy).Contents (Elt Ideal)) (b : Fin 8) (t : Fin 4096) (d : Fin 2048) :
    val_main_v13 (F := Ideal) w (ix3 b t d) = w (ix2 d (1 : Fin 4)) := by
  rw [val_main_v13_apply, val_main_v12_apply, val_main_v11_apply, val_main_v10_apply]
  exact congrArg w (funext fun a => match a with
    | ⟨0, _⟩ => Fin.ext (Nat.div_one d.val)
    | ⟨1, _⟩ => Fin.ext rfl)

/-- Column 2 of the weights, likewise. -/
theorem weight_read2 (w : (⟨S2048x4, .f32⟩ : BufTy).Contents (Elt Ideal)) (b : Fin 8) (t : Fin 4096) (d : Fin 2048) :
    val_main_v20 (F := Ideal) w (ix3 b t d) = w (ix2 d (2 : Fin 4)) := by
  rw [val_main_v20_apply, val_main_v19_apply, val_main_v18_apply, val_main_v17_apply]
  exact congrArg w (funext fun a => match a with
    | ⟨0, _⟩ => Fin.ext (Nat.div_one d.val)
    | ⟨1, _⟩ => Fin.ext rfl)

/-- Column 3 of the weights, likewise. -/
theorem weight_read3 (w : (⟨S2048x4, .f32⟩ : BufTy).Contents (Elt Ideal)) (b : Fin 8) (t : Fin 4096) (d : Fin 2048) :
    val_main_v27 (F := Ideal) w (ix3 b t d) = w (ix2 d (3 : Fin 4)) := by
  rw [val_main_v27_apply, val_main_v26_apply, val_main_v25_apply, val_main_v24_apply]
  exact congrArg w (funext fun a => match a with
    | ⟨0, _⟩ => Fin.ext (Nat.div_one d.val)
    | ⟨1, _⟩ => Fin.ext rfl)

/-- The zero array the sum starts from, read at any index. -/
theorem zero_read (i : S8x4096x2048.Idx) : val_main_v1 (F := Ideal) i = (0 : EReal) := by
  rw [val_main_v1_apply, val_main_cst_apply]
  exact Ideal.ofBits_zero_f32

/-- The reference's first result is the convolution. -/
theorem ref_eq_conv (x : (⟨S8x4096x2048, .f32⟩ : BufTy).Contents (Elt Ideal))
    (w : (⟨S2048x4, .f32⟩ : BufTy).Contents (Elt Ideal)) :
    val_main_v29 (F := Ideal) x w = conv x w := by
  funext i
  obtain ⟨b, t, d, rfl⟩ : ∃ (b : Fin 8) (t : Fin 4096) (d : Fin 2048), i = ix3 b t d :=
    ⟨i 0, i 1, i 2, eq_ix3 i⟩
  rw [conv_ix3, ← convAt'_eq]
  unfold convAt'
  rw [val_main_v29_apply, val_main_v28_apply, val_main_v22_apply, val_main_v21_apply, val_main_v15_apply,
    val_main_v14_apply, val_main_v8_apply, val_main_v7_apply, zero_read,
    val_main_v2_apply, val_main_v9_apply, val_main_v16_apply, val_main_v23_apply,
    weight_read0, weight_read1, weight_read2, weight_read3,
    padded_read x 0 (by omega) b t d _ rfl (Nat.zero_add _).symm rfl,
    padded_read x 1 (by omega) b t d _ rfl rfl rfl,
    padded_read x 2 (by omega) b t d _ rfl rfl rfl,
    padded_read x 3 (by omega) b t d _ rfl rfl rfl]
  rfl

end Cert.RefValue

end
-- ==== Proof.lean ====
/-
  A four-tap causal depthwise convolution, `out[b, t, d] = Σ_{m < 4} w[d, 3 − m] · x[b, t − m, d]` with `x` read as zero
  before the start of the sequence, computed two ways: a pipelined kernel over an 8 × 8 grid of (batch, block of 512
  steps) that reads each block of `x` together with the eight steps preceding it — both through windows on the one
  array `x` — and multiplies by the transposed weights, newest sample first; and a host program that pads `x` with
  three zero steps in front and sums four shifted slices against the weight columns, oldest sample first. Over the
  extended reals the two sums differ only in the order of their terms and of the factors in each product, so they are
  equal by commutativity and associativity alone: the finiteness of the inputs is never used. The second result, the
  last three steps of `x`, is the same slice on both sides.

  The frames: each kernel program is a host transposition, one kernel region, and a host slice. The region's two
  windows on `x` only read it, so the array's buffer is dealt to them in two halves at the region's entry and is whole
  again at its exit; every grid point's body loads its three input blocks and stores one whole output block. The
  reference's frame is its run with the values dropped. No operation of the kernel was rewritten for the ideal
  reading, so the idealization claim has no conjunct.
-/
import proofs.«127751_j35545149342129_1_alg».proof.Defs
import proofs.«127751_j35545149342129_1_alg».proof.Proof.Gen.Kernel
import proofs.«127751_j35545149342129_1_alg».proof.Proof.Gen.KernelIdeal
import proofs.«127751_j35545149342129_1_alg».proof.Proof.Gen.ReferenceIdeal
import proofs.«127751_j35545149342129_1_alg».proof.Proof.Gen.Pre_finite_inputs
import proofs.«127751_j35545149342129_1_alg».proof.Proof.Gen.ReferenceIdeal.Run
import proofs.«127751_j35545149342129_1_alg».proof.Proof.Gen.ReferenceIdeal.Read
import proofs.«127751_j35545149342129_1_alg».proof.Proof.KRun
import proofs.«127751_j35545149342129_1_alg».proof.Proof.KIValue
import proofs.«127751_j35545149342129_1_alg».proof.Proof.RefValue

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Conv.frame m ρ

/-- So does the idealized kernel program. -/
theorem frame_kernelIdeal : Cert.frame_KernelIdeal := fun m ρ _ => Cert.KernelIdeal.Conv.frame m ρ

/-- The reference runs and leaves its arguments as launched: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both programs end with the convolution of the arguments in the first
    result and the signal's last three steps in the second. -/
theorem algebraic : Cert.algebraic_KernelIdeal_ReferenceIdeal := by
  intro m ρ m' ρ' _ hagree
  refine ⟨_, _, Cert.KernelIdeal.Conv.run_values m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v29_eq, Cert.RefValue.ref_eq_conv, (hagree c).1, (hagree c).2]
  · rw [(h c).2.1, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
